-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S128x256 : Shape := ⟨2, ![128, 256]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : IVec S2x600000 32) (main_arg2 : FVec F S128x256 .f32) (main_arg3 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S2x600000 : Shape := ⟨2, ![2, 600000]⟩
abbrev S128x256 : Shape := ⟨2, ![128, 256]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S100000 : Shape := ⟨1, ![100000]⟩
abbrev S100000x1 : Shape := ⟨2, ![100000, 1]⟩
abbrev S128x128 : Shape := ⟨2, ![128, 128]⟩
abbrev S1x128 : Shape := ⟨2, ![1, 128]⟩
abbrev S4000x128 : Shape := ⟨2, ![4000, 128]⟩
abbrev S4000x1 : Shape := ⟨2, ![4000, 1]⟩

abbrev nBuf : Space → Nat
  | .hbm => 36
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x256, .f32⟩
  | .hbm, ⟨3, _⟩ => ⟨S128, .f32⟩
  | .hbm, ⟨4, _⟩ => ⟨S1x600000, .i32⟩
  | .hbm, ⟨5, _⟩ => ⟨S600000, .i32⟩
  | .hbm, ⟨6, _⟩ => ⟨S1x600000, .i32⟩
  | .hbm, ⟨7, _⟩ => ⟨S600000, .i32⟩
  | .hbm, ⟨8, _⟩ => ⟨S_, .i32⟩
  | .hbm, ⟨9, _⟩ => ⟨S600000, .i32⟩
  | .hbm, ⟨10, _⟩ => ⟨S600000, .i1⟩
  | .hbm, ⟨11, _⟩ => ⟨S_, .i32⟩
  | .hbm, ⟨12, _⟩ => ⟨S600000, .i32⟩
  | .hbm, ⟨13, _⟩ => ⟨S600000, .i32⟩
  | .hbm, ⟨14, _⟩ => ⟨S600000, .i32⟩
  | .hbm, ⟨15, _⟩ => ⟨S600000x1, .i32⟩
  | .hbm, ⟨16, _⟩ => ⟨S600000x128, .f32⟩
  | .hbm, ⟨17, _⟩ => ⟨S_, .f32⟩
  | .hbm, ⟨18, _⟩ => ⟨S100000x128, .f32⟩
  | .hbm, ⟨19, _⟩ => ⟨S600000x1, .i32⟩
  | .hbm, ⟨20, _⟩ => ⟨S100000x128, .f32⟩
  | .hbm, ⟨21, _⟩ => ⟨S_, .f32⟩
  | .hbm, ⟨22, _⟩ => ⟨S600000, .f32⟩
  | .hbm, ⟨23, _⟩ => ⟨S_, .f32⟩
  | .hbm, ⟨24, _⟩ => ⟨S100000, .f32⟩
  | .hbm, ⟨25, _⟩ => ⟨S600000x1, .i32⟩
  | .hbm, ⟨26, _⟩ => ⟨S100000, .f32⟩
  | .hbm, ⟨27, _⟩ => ⟨S100000x1, .f32⟩
  | .hbm, ⟨28, _⟩ => ⟨S128x128, .f32⟩
  | .hbm, ⟨29, _⟩ => ⟨S128x128, .f32⟩
  | .hbm, ⟨30, _⟩ => ⟨S128x128, .bf16⟩
  | .hbm, ⟨31, _⟩ => ⟨S128x128, .f32⟩
  | .hbm, ⟨32, _⟩ => ⟨S128x128, .f32⟩
  | .hbm, ⟨33, _⟩ => ⟨S128x128, .bf16⟩
  | .hbm, ⟨34, _⟩ => ⟨S1x128, .f32⟩
  | .hbm, ⟨35, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x1, .f32⟩
  | .local _ .vmem, ⟨5, _⟩ => ⟨S4000x1, .f32⟩
  | .local _ .vmem, ⟨6, _⟩ => ⟨S128x128, .bf16⟩
  | .local _ .vmem, ⟨7, _⟩ => ⟨S128x128, .bf16⟩
  | .local _ .vmem, ⟨8, _⟩ => ⟨S1x128, .f32⟩
  | .local _ .vmem, ⟨9, _⟩ => ⟨S4000x128, .f32⟩
  | .local _ .vmem, ⟨10, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S100000 : S_.BroadcastsInDim S100000 (![] : Fin 0 → Fin S100000.rank)
  shapeCasts_S100000_S100000x1 : S100000.ShapeCasts S100000x1
  slices_S128x256_S128x128_0_0 : S128x256.Slices ![0, 0] S128x128
  transposes_S128x128_S128x128_1_0 : S128x128.Transposes [1, 0] S128x128
  bitsLt_bf16_f32 : FTy.bits .bf16 < FTy.bits .f32
  slices_S128x256_S128x128_0_128 : S128x256.Slices ![0, 128] S128x128
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S100000x128.size a
  hwx0_6 : ∀ i : grid0.Coords, EltTy.bits .f32 = 32 ∨ (Rect.block (s := S100000x128) S4000x128.size (cc0_transform_6 i) (hinb0_6 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S128x256 : Shape := ⟨2, ![128, 256]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S100000 : Shape := ⟨1, ![100000]⟩
abbrev S100000x1 : Shape := ⟨2, ![100000, 1]⟩
abbrev S100000x256 : Shape := ⟨2, ![100000, 256]⟩
abbrev S256x128 : Shape := ⟨2, ![256, 128]⟩
abbrev S1x128 : Shape := ⟨2, ![1, 128]⟩

abbrev nBuf : Space → Nat
  | .hbm => 42
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x256, .f32⟩
  | .hbm, ⟨3, _⟩ => ⟨S128, .f32⟩
  | .hbm, ⟨4, _⟩ => ⟨S1x600000, .i32⟩
  | .hbm, ⟨5, _⟩ => ⟨S600000, .i32⟩
  | .hbm, ⟨6, _⟩ => ⟨S1x600000, .i32⟩
  | .hbm, ⟨7, _⟩ => ⟨S600000, .i32⟩
  | .hbm, ⟨8, _⟩ => ⟨S_, .i32⟩
  | .hbm, ⟨9, _⟩ => ⟨S600000, .i32⟩
  | .hbm, ⟨10, _⟩ => ⟨S600000, .i1⟩
  | .hbm, ⟨11, _⟩ => ⟨S_, .i32⟩
  | .hbm, ⟨12, _⟩ => ⟨S600000, .i32⟩
  | .hbm, ⟨13, _⟩ => ⟨S600000, .i32⟩
  | .hbm, ⟨14, _⟩ => ⟨S600000, .i32⟩
  | .hbm, ⟨15, _⟩ => ⟨S600000x1, .i32⟩
  | .hbm, ⟨16, _⟩ => ⟨S600000x128, .f32⟩
  | .hbm, ⟨17, _⟩ => ⟨S_, .f32⟩
  | .hbm, ⟨18, _⟩ => ⟨S100000x128, .f32⟩
  | .hbm, ⟨19, _⟩ => ⟨S600000x1, .i32⟩
  | .hbm, ⟨20, _⟩ => ⟨S100000x128, .f32⟩
  | .hbm, ⟨21, _⟩ => ⟨S_, .f32⟩
  | .hbm, ⟨22, _⟩ => ⟨S600000, .f32⟩
  | .hbm, ⟨23, _⟩ => ⟨S_, .f32⟩
  | .hbm, ⟨24, _⟩ => ⟨S100000, .f32⟩
  | .hbm, ⟨25, _⟩ => ⟨S600000x1, .i32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S100000x128, .f32⟩
  | .hbm, ⟨32, _⟩ => ⟨S100000x128, .f32⟩
  | .hbm, ⟨33, _⟩ => ⟨S100000x256, .f32⟩
  | .hbm, ⟨34, _⟩ => ⟨S256x128, .f32⟩
  | .hbm, ⟨35, _⟩ => ⟨S100000x128, .f32⟩
  | .hbm, ⟨36, _⟩ => ⟨S1x128, .f32⟩
  | .hbm, ⟨37, _⟩ => ⟨S100000x128, .f32⟩
  | .hbm, ⟨38, _⟩ => ⟨S100000x128, .f32⟩
  | .hbm, ⟨39, _⟩ => ⟨S_, .f32⟩
  | .hbm, ⟨40, _⟩ => ⟨S100000x128, .f32⟩
  | .hbm, ⟨41, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_call0_cst : Ref sig .tc := ⟨.hbm, 39, rfl⟩
abbrev main_call0_v0 : Ref sig .tc := ⟨.hbm, 40, rfl⟩
abbrev main_v29 : Ref sig .tc := ⟨.hbm, 41, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  concatenates_S100000x128_S100000x128_S100000x256_d1 : Shape.Concatenates [S100000x128, S100000x128] S100000x256 1
  transposes_S128x256_S256x128_1_0 : S128x256.Transposes [1, 0] S256x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S100000x256_S256x128_S100000x128_1_0_0_1_n_n_wf : DotDims.WF S100000x256 S256x128 S100000x128 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.Layer.lean ====
/-
  The layer both programs compute, as ONE function of five arrays, index by index, on the extended reals.

  For node `n` and output feature `o`:

      out[n, o] = max ( ( Σ_{k<128} x[n,k] · W[o,k]
                        + Σ_{k<128} (agg[n,k] / max(deg[n], 1)) · W[o,128+k] )
                        + b[o] , 0 )

  `agg` (the sum of the source rows of the edges that arrive at `n`) and `deg` (how many arrive) are taken as given
  arrays here: both programs build them with the same operations from the same inputs, so nothing about them
  is used except that they are the same on both sides.

  The one law that joins the two programs is `sum_halves`: a sum over the 256 columns of the weight matrix is
  the sum over its first 128 columns plus the sum over its last 128.  One program multiplies the row `[x | mean]`
  of 256 entries by the whole weight matrix; the other multiplies each half by its half of the matrix and adds.
  Addition of extended reals is commutative and associative, which is all the law uses: no finiteness.
-/
import Idealize.ShloMosaic.PureOps.Ideal.Laws
import Idealize.ShloMosaic.Lib.ValueIdx

noncomputable section

namespace Cert.MeanLayer

open Idealize.ShloMosaic Idealize.ShloMosaic.ValueIdx

/-- Node features, aggregated features and the output: one row of 128 per node. -/
abbrev Feat : Shape := ⟨2, ![100000, 128]⟩
/-- The weight matrix: one row of 256 per output feature, the first 128 for a node's own features, the last 128
    for its neighbours' mean. -/
abbrev Wgt : Shape := ⟨2, ![128, 256]⟩
/-- One number per node. -/
abbrev PerNode : Shape := ⟨1, ![100000]⟩
/-- One number per output feature. -/
abbrev PerOut : Shape := ⟨1, ![128]⟩

/-- Column `k` of the first half of the weight matrix. -/
abbrev own (k : Fin 128) : Fin 256 := ⟨k.val, by omega⟩
/-- Column `128 + k`: column `k` of the second half. -/
abbrev nbr (k : Fin 128) : Fin 256 := ⟨128 + k.val, by omega⟩

/-- A node's mean over its arriving edges at feature `k`: the aggregate over the degree, the degree raised to
    one where no edge arrives. -/
abbrev mean (agg : Feat.Idx → EReal) (deg : PerNode.Idx → EReal) (n : Fin 100000) (k : Fin 128) : EReal :=
  Ideal.div (agg (ix2 n k)) (max (deg (ix1 n)) (Ideal.ofBits .f32 0x3F800000#32))

/-- The layer at node `n`, output feature `o`. -/
def at_ (x agg : Feat.Idx → EReal) (deg : PerNode.Idx → EReal) (W : Wgt.Idx → EReal) (b : PerOut.Idx → EReal)
    (n : Fin 100000) (o : Fin 128) : EReal :=
  max ((∑ k : Fin 128, x (ix2 n k) * W (ix2 o (own k)) + ∑ k : Fin 128, mean agg deg n k * W (ix2 o (nbr k)))
        + b (ix1 o)) (Ideal.ofBits .f32 0x00000000#32)

/-- The layer as an array. -/
def out (x agg : Feat.Idx → EReal) (deg : PerNode.Idx → EReal) (W : Wgt.Idx → EReal) (b : PerOut.Idx → EReal) :
    Feat.Idx → EReal :=
  fun i => at_ x agg deg W b (i 0) (i 1)

theorem out_ix2 (x agg : Feat.Idx → EReal) (deg : PerNode.Idx → EReal) (W : Wgt.Idx → EReal) (b : PerOut.Idx → EReal)
    (n : Fin 100000) (o : Fin 128) : out x agg deg W b (ix2 n o) = at_ x agg deg W b n o := rfl

/-- A sum over 256 columns is the sum over the first 128 plus the sum over the last 128. -/
theorem sum_halves {M : Type*} [AddCommMonoid M] (f : Fin 256 → M) :
    ∑ k : Fin 256, f k = ∑ k : Fin 128, f (own k) + ∑ k : Fin 128, f (nbr k) :=
  Fin.sum_univ_add (a := 128) (b := 128) f

end Cert.MeanLayer

end
-- ==== Proof.RefLayer.lean ====
/-
  The reference computes the layer.

  Its last stage is `max (row · Wᵀ + b, 0)` where `row` is the node's 256 entries `[x | mean]` laid side by side.
  Read at node `n` and output feature `o` the product is a sum over the 256 columns; it splits into its two halves
  (`MeanLayer.sum_halves`), the first half reading `x` (the joined row's first piece), the second the mean (its
  second piece, 128 columns further), and the transposed weight matrix at `(k, o)` reading `W` at `(o, k)`.
  The mean is the aggregate over `max (deg, 1)`, the degree stood up as a column and spread over the 128 features.
-/
import proofs.«411921_j47339129536946_3_alg».proof.Proof.Gen.ReferenceIdeal.Read
import proofs.«411921_j47339129536946_3_alg».proof.Proof.Layer

noncomputable section

namespace Cert.RefLayer

open Cert.ReferenceIdeal Cert.ReferenceIdeal.Gen Cert.ReferenceIdeal.Read
open Idealize.ShloMosaic Idealize.ShloMosaic.ValueIdx Cert.MeanLayer

variable (x0 : (⟨S100000x128, .f32⟩ : BufTy).Contents (Elt Ideal)) (x1 : (⟨S2x600000, .i32⟩ : BufTy).Contents (Elt Ideal))
  (x2 : (⟨S128x256, .f32⟩ : BufTy).Contents (Elt Ideal)) (x3 : (⟨S128, .f32⟩ : BufTy).Contents (Elt Ideal))

/-! ## Where each stage reads its operand -/

/-- The product's left factor at output `(n, o)` and column `k` sits at `(n, k)` of the joined rows. -/
theorem left_at (n : Fin 100000) (o : Fin 128) (k : Fin 256) : lidx_main_v25 (ix2 n o) k = ix2 n k := by
  funext a; match a with | ⟨0, _⟩ => rfl | ⟨1, _⟩ => rfl

/-- Its right factor sits at `(k, o)` of the transposed weights. -/
theorem right_at (n : Fin 100000) (o : Fin 128) (k : Fin 256) : ridx_main_v25 (ix2 n o) k = ix2 k o := by
  funext a; match a with | ⟨0, _⟩ => rfl | ⟨1, _⟩ => rfl

/-- The transposed weights at `(k, o)` are the weights at `(o, k)`. -/
theorem weight_at (o : Fin 128) (k : Fin 256) : val_main_v24 (F := Ideal) x2 (ix2 k o) = x2 (ix2 o k) := by
  rw [val_main_v24_apply]
  exact congrArg x2 (funext fun a => match a with | ⟨0, _⟩ => rfl | ⟨1, _⟩ => rfl)

/-- The bias spread over the nodes reads, at `(n, o)`, the bias at `o`. -/
theorem bias_at (n : Fin 100000) (o : Fin 128) : val_main_v27 (F := Ideal) x3 (ix2 n o) = x3 (ix1 o) := by
  rw [val_main_v27_apply, val_main_v26_apply]
  exact congrArg x3 (funext fun a => match a with | ⟨0, _⟩ => rfl)

/-- The quotient stage at `(n, k)` is the node's mean: the degree, raised to one, stood up as a column and spread
    over the features reads the degree at `n`. -/
theorem mean_at (n : Fin 100000) (k : Fin 128) :
    val_main_v22 (F := Ideal) x0 x1 (ix2 n k) = mean (val_main_v13 (F := Ideal) x0 x1) (val_main_v17 (F := Ideal) x1) n k := by
  rw [val_main_v22_apply, val_main_v21_apply, val_main_v20_apply, val_main_v19_apply, val_main_v18_apply, val_main_cst_3_apply]
  have e : idx_main_v20 (idx_main_v21 (ix2 n k)) = ix1 n := funext fun a => match a with | ⟨0, _⟩ => rfl
  rw [e]
  rfl

/-- The joined row's first 128 entries are the node's own features. -/
theorem row_own (n : Fin 100000) (k : Fin 128) : val_main_v23 (F := Ideal) x0 x1 (ix2 n (own k)) = x0 (ix2 n k) := by
  unfold val_main_v23
  exact concatenate_pair_apply_left (t := S100000x256) (s₁ := S100000x128) (s₂ := S100000x128) (1 : Fin 2) x0 _ _
    (ix2 n (own k)) rfl (ix2 n k)
    (fun b => match b with | ⟨0, _⟩ => rfl | ⟨1, _⟩ => rfl)

/-- Its last 128 entries are the node's mean. -/
theorem row_nbr (n : Fin 100000) (k : Fin 128) :
    val_main_v23 (F := Ideal) x0 x1 (ix2 n (nbr k)) = val_main_v22 (F := Ideal) x0 x1 (ix2 n k) := by
  unfold val_main_v23
  exact concatenate_pair_apply_right (t := S100000x256) (s₁ := S100000x128) (s₂ := S100000x128) (1 : Fin 2) x0 _ _
    (ix2 n (nbr k)) rfl rfl (ix2 n k)
    (fun b hb => match b, hb with
      | ⟨0, _⟩, _ => rfl
      | ⟨1, _⟩, hb => absurd rfl hb)
    (by show k.val + 128 = 128 + k.val; omega)

/-! ## The reference's result is the layer -/

theorem result_eq :
    val_main_v29 (F := Ideal) x0 x1 x2 x3
      = out x0 (val_main_v13 (F := Ideal) x0 x1) (val_main_v17 (F := Ideal) x1) x2 x3 := by
  funext i
  obtain ⟨n, o, rfl⟩ : ∃ (n : Fin 100000) (o : Fin 128), i = ix2 n o := ⟨i 0, i 1, eq_ix2 i⟩
  rw [out_ix2, val_main_v29_apply, val_main_v28_apply, val_main_v25_apply, bias_at, val_main_call0_v0_apply,
    val_main_call0_cst_apply, sum_halves]
  unfold at_
  simp only [left_at, right_at, weight_at, row_own, row_nbr, mean_at]
  rfl

end Cert.RefLayer

end
-- ==== Proof.LibColumnCast.lean ====
/-
  A vector stood up as a column: an `[a]` array cast to `[a, 1]` reads, at `(i, u)`, the operand at `i`, whatever
  the unit coordinate `u`.  (The trailing-axis companion of the library's leading-axis form `shapeCast_a_1a_apply`:
  what `keepdims=True` does to a row reduction's result.)
-/
import Idealize.ShloMosaic.Lib.Pipeline.Value
import Idealize.ShloMosaic.Lib.ValueIdx

namespace Idealize.ShloMosaic.ValueIdx

variable {α : Type}

/-- An `[a]` array cast to `[a, 1]` reads, at `(i, u)`, the operand at `i`: both indices have row-major position
    `i`, since the unit coordinate is `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Idealize.ShloMosaic.ValueIdx
-- ==== Proof.KernelOperands.lean ====
/-
  The arrays the kernel's region finds, other than the node features themselves.

  Before the region the program builds five arrays from its inputs:
    * the aggregate (the sum, per node, of the source rows of the edges arriving there) and the degree (how many
      arrive), by exactly the operations the reference uses — so each IS the reference's own stage, applied to the
      same inputs; the degree is then stood up as a column;
    * the two halves of the weight matrix, each cut out along the columns, transposed (input feature by output
      feature) and narrowed to bf16 — on the extended reals the narrowing is the identity, so entry `(k, o)` of the
      first half is `W[o, k]` and of the second half `W[o, 128 + k]`;
    * the bias as one row.
-/
import proofs.«411921_j47339129536946_3_alg».proof.Proof.Gen.KernelIdeal.Frame
import proofs.«411921_j47339129536946_3_alg».proof.Proof.Gen.ReferenceIdeal.Read
import proofs.«411921_j47339129536946_3_alg».proof.Proof.Layer
import proofs.«411921_j47339129536946_3_alg».proof.Proof.LibColumnCast
import Idealize.ShloMosaic.Lib.StableHlo.Run
import Idealize.ShloMosaic.Lib.ValueLayout

noncomputable section

namespace Cert.KernelOperands

open Cert.KernelIdeal Cert.KernelIdeal.Gen Idealize.ShloMosaic Idealize.ShloMosaic.TcCoe Idealize.SL.Sem
open Idealize.ShloMosaic.StableHlo Idealize.ShloMosaic.ValueIdx Cert.MeanLayer

variable (m : (ℓ : Loc nD τ sig) → Buf (Elt Ideal) ℓ)

/-- The node features as launched. -/
abbrev feats (c : Dev nD) : S100000x128.Idx → EReal := m ((c : Thread nD τ).loc main_arg0)
/-- The edge list as launched. -/
abbrev edges (c : Dev nD) : (⟨S2x600000, .i32⟩ : BufTy).Contents (Elt Ideal) := m ((c : Thread nD τ).loc main_arg1)
/-- The weight matrix as launched. -/
abbrev weights (c : Dev nD) : S128x256.Idx → EReal := m ((c : Thread nD τ).loc main_arg2)
/-- The bias as launched. -/
abbrev bias (c : Dev nD) : S128.Idx → EReal := m ((c : Thread nD τ).loc main_arg3)

/-- The aggregate, as the reference builds it, of this program's inputs. -/
abbrev agg (c : Dev nD) : S100000x128.Idx → EReal :=
  Cert.ReferenceIdeal.Read.val_main_v13 (F := Ideal) (feats m c) (edges m c)
/-- The degree, as the reference builds it, of this program's inputs. -/
abbrev deg (c : Dev nD) : S100000.Idx → EReal :=
  Cert.ReferenceIdeal.Read.val_main_v17 (F := Ideal) (edges m c)

/-! ## Each array as a term of the inputs -/

/-- The region finds the aggregate: the same gather and scatter-add, of the same inputs. -/
theorem agg_eq (c : Dev nD) : (V m c main_v13 : S100000x128.Idx → EReal) = agg m c := by
  dsimp only [Gen.V, Gen.hostOps0]
  after_results
  rfl

/-- It finds the degree as a column. -/
theorem degcol_eq (c : Dev nD) :
    (V m c main_v18 : S100000x1.Idx → EReal) = shapeCast S100000x1 (deg m c) shapeCasts_S100000_S100000x1 := by
  dsimp only [Gen.V, Gen.hostOps0]
  after_results
  rfl

/-- The first weight half: columns 0 to 127, transposed (the narrowing to bf16 is the identity here). -/
theorem wown_eq (c : Dev nD) : (V m c main_v21 : S128x128.Idx → EReal)
    = (transpose S128x128 [1, 0] (extractStridedSlice S128x128 ![0, 0] (weights m c) slices_S128x256_S128x128_0_0)
        transposes_S128x128_S128x128_1_0 : S128x128.Idx → EReal) := by
  dsimp only [Gen.V, Gen.hostOps0]
  after_results
  rfl

/-- The second weight half: columns 128 to 255, transposed (the narrowing again the identity). -/
theorem wnbr_eq (c : Dev nD) : (V m c main_v24 : S128x128.Idx → EReal)
    = (transpose S128x128 [1, 0] (extractStridedSlice S128x128 ![0, 128] (weights m c) slices_S128x256_S128x128_0_128)
        transposes_S128x128_S128x128_1_0 : S128x128.Idx → EReal) := by
  dsimp only [Gen.V, Gen.hostOps0]
  after_results
  rfl

/-- The bias as one row. -/
theorem biasrow_eq (c : Dev nD) :
    (V m c main_v25 : S1x128.Idx → EReal) = shapeCast S1x128 (bias m c) shapeCasts_S128_S1x128 := by
  dsimp only [Gen.V, Gen.hostOps0]
  after_results
  rfl

/-! ## Each array at an index -/

/-- The degree column at node `n` is the degree at `n`. -/
theorem degcol_at (c : Dev nD) (n : Fin 100000) (u : Fin 1) :
    (V m c main_v18 : S100000x1.Idx → EReal) (ix2 n u) = deg m c (ix1 n) := by
  rw [degcol_eq]
  exact shapeCast_a_a1_apply _ _ n u

/-- The first weight half at `(k, o)` is `W[o, k]`. -/
theorem wown_at (c : Dev nD) (k o : Fin 128) :
    (V m c main_v21 : S128x128.Idx → EReal) (ix2 k o) = weights m c (ix2 o (own k)) := by
  rw [wown_eq, transpose_ix2_apply]
  exact slice2_axis1_apply 0 _ _ o k (own k) (Nat.zero_add _).symm

/-- The second weight half at `(k, o)` is `W[o, 128 + k]`. -/
theorem wnbr_at (c : Dev nD) (k o : Fin 128) :
    (V m c main_v24 : S128x128.Idx → EReal) (ix2 k o) = weights m c (ix2 o (nbr k)) := by
  rw [wnbr_eq, transpose_ix2_apply]
  exact slice2_axis1_apply 128 _ _ o k (nbr k) rfl

/-- The bias row at `(0, o)` is the bias at `o`. -/
theorem biasrow_at (c : Dev nD) (u : Fin 1) (o : Fin 128) :
    (V m c main_v25 : S1x128.Idx → EReal) (ix2 u o) = bias m c (ix1 o) := by
  rw [biasrow_eq]
  exact shapeCast_a_1a_apply _ _ u o

end Cert.KernelOperands

end
-- ==== Proof.KernelBlocks.lean ====
/-
  Each window's block at a grid point, in terms of the arrays.

  The grid has 25 points; point `t` works on nodes `4000 t … 4000 t + 3999`.  The node features, the aggregate and
  the degree column move with the point (row `r` of their block is node `4000 t + r`); the two weight halves and
  the bias row are the same whole array at every point.  An element of a block sits in its array at block index
  times block size plus its coordinate inside the block, on each axis.
-/
import proofs.«411921_j47339129536946_3_alg».proof.Proof.KernelOperands
import Idealize.ShloMosaic.Lib.Pipeline.Value

noncomputable section

namespace Cert.KernelBlocks

open Cert.KernelIdeal Cert.KernelIdeal.Gen Idealize.ShloMosaic Idealize.ShloMosaic.TcCoe Idealize.SL.Sem
open Idealize.ShloMosaic.ValueIdx Cert.MeanLayer Cert.KernelOperands

variable (m : (ℓ : Loc nD τ sig) → Buf (Elt Ideal) ℓ)

/-- There are 25 grid points. -/
theorem point_lt (t : Fin cfg0.N) : t.val < 25 := lt_of_lt_of_eq t.isLt N_0

/-- Row `r` of point `t`'s block is node `4000 t + r`. -/
def node (t : Fin cfg0.N) (r : Fin 4000) : Fin 100000 :=
  ⟨t.val * 4000 + r.val, by have := point_lt t; have := r.isLt; omega⟩

theorem node_val (t : Fin cfg0.N) (r : Fin 4000) : (node t r).val = t.val * 4000 + r.val := rfl

/-- The printed index maps over the grid: the three per-node windows and the output are at block `(t, 0)`, the
    weight halves and the bias row at block `(0, 0)`. -/
theorem index_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## The blocks, at their literal types -/

abbrev featBlk (c : Dev nD) (t : Fin cfg0.N) : Vec Ideal S4000x128 .f32 := iblk m c 0 t
abbrev aggBlk (c : Dev nD) (t : Fin cfg0.N) : Vec Ideal S4000x128 .f32 := iblk m c 1 t
abbrev degBlk (c : Dev nD) (t : Fin cfg0.N) : Vec Ideal S4000x1 .f32 := iblk m c 2 t
abbrev wownBlk (c : Dev nD) (t : Fin cfg0.N) : Vec Ideal S128x128 .bf16 := iblk m c 3 t
abbrev wnbrBlk (c : Dev nD) (t : Fin cfg0.N) : Vec Ideal S128x128 .bf16 := iblk m c 4 t
abbrev biasBlk (c : Dev nD) (t : Fin cfg0.N) : Vec Ideal S1x128 .f32 := iblk m c 5 t

/-! ## Where a block's element sits in its array -/

theorem feat_pos (t : Fin cfg0.N) (r : Fin 4000) (k : Fin 128) :
    ((cfg0.win 0).blk t).view.emb (ix2 r k) = ix2 (node t r) k := by
  obtain ⟨e0, e1, -⟩ := index_maps t
  funext a; apply Fin.ext
  match a with
  | ⟨0, _⟩ => show win0_0.index t (0 : Fin 2) * 4000 + 1 * r.val = t.val * 4000 + r.val; rw [e0]; omega
  | ⟨1, _⟩ => show win0_0.index t (1 : Fin 2) * 128 + 1 * k.val = k.val; rw [e1]; omega

theorem agg_pos (t : Fin cfg0.N) (r : Fin 4000) (k : Fin 128) :
    ((cfg0.win 1).blk t).view.emb (ix2 r k) = ix2 (node t r) k := by
  obtain ⟨-, -, e0, e1, -⟩ := index_maps t
  funext a; apply Fin.ext
  match a with
  | ⟨0, _⟩ => show win0_1.index t (0 : Fin 2) * 4000 + 1 * r.val = t.val * 4000 + r.val; rw [e0]; omega
  | ⟨1, _⟩ => show win0_1.index t (1 : Fin 2) * 128 + 1 * k.val = k.val; rw [e1]; omega

theorem deg_pos (t : Fin cfg0.N) (r : Fin 4000) (u : Fin 1) :
    ((cfg0.win 2).blk t).view.emb (ix2 r u) = ix2 (node t r) u := by
  obtain ⟨-, -, -, -, e0, e1, -⟩ := index_maps t
  funext a; apply Fin.ext
  match a with
  | ⟨0, _⟩ => show win0_2.index t (0 : Fin 2) * 4000 + 1 * r.val = t.val * 4000 + r.val; rw [e0]; omega
  | ⟨1, _⟩ => show win0_2.index t (1 : Fin 2) * 1 + 1 * u.val = u.val; rw [e1]; omega

theorem wown_pos (t : Fin cfg0.N) (k o : Fin 128) :
    ((cfg0.win 3).blk t).view.emb (ix2 k o) = ix2 k o := by
  obtain ⟨-, -, -, -, -, -, e0, e1, -⟩ := index_maps t
  funext a; apply Fin.ext
  match a with
  | ⟨0, _⟩ => show win0_3.index t (0 : Fin 2) * 128 + 1 * k.val = k.val; rw [e0]; omega
  | ⟨1, _⟩ => show win0_3.index t (1 : Fin 2) * 128 + 1 * o.val = o.val; rw [e1]; omega

theorem wnbr_pos (t : Fin cfg0.N) (k o : Fin 128) :
    ((cfg0.win 4).blk t).view.emb (ix2 k o) = ix2 k o := by
  obtain ⟨-, -, -, -, -, -, -, -, e0, e1, -⟩ := index_maps t
  funext a; apply Fin.ext
  match a with
  | ⟨0, _⟩ => show win0_4.index t (0 : Fin 2) * 128 + 1 * k.val = k.val; rw [e0]; omega
  | ⟨1, _⟩ => show win0_4.index t (1 : Fin 2) * 128 + 1 * o.val = o.val; rw [e1]; omega

theorem bias_pos (t : Fin cfg0.N) (u : Fin 1) (o : Fin 128) :
    ((cfg0.win 5).blk t).view.emb (ix2 u o) = ix2 u o := by
  obtain ⟨-, -, -, -, -, -, -, -, -, -, e0, e1, -⟩ := index_maps t
  funext a; apply Fin.ext
  match a with
  | ⟨0, _⟩ => show win0_5.index t (0 : Fin 2) * 1 + 1 * u.val = u.val; rw [e0]; omega
  | ⟨1, _⟩ => show win0_5.index t (1 : Fin 2) * 128 + 1 * o.val = o.val; rw [e1]; omega

theorem out_pos (t : Fin cfg0.N) (r : Fin 4000) (o : Fin 128) :
    ((cfg0.win 6).blk t).view.emb (ix2 r o) = ix2 (node t r) o := by
  obtain ⟨-, -, -, -, -, -, -, -, -, -, -, -, e0, e1⟩ := index_maps t
  funext a; apply Fin.ext
  match a with
  | ⟨0, _⟩ => show win0_6.index t (0 : Fin 2) * 4000 + 1 * r.val = t.val * 4000 + r.val; rw [e0]; omega
  | ⟨1, _⟩ => show win0_6.index t (1 : Fin 2) * 128 + 1 * o.val = o.val; rw [e1]; omega

/-! ## The blocks' elements -/

theorem featBlk_at (c : Dev nD) (t : Fin cfg0.N) (r : Fin 4000) (k : Fin 128) :
    featBlk m c t (ix2 r k) = feats m c (ix2 (node t r) k) := by
  show V m c main_arg0 (((cfg0.win 0).blk t).view.emb (ix2 r k)) = _
  rw [feat_pos, V_main_arg0]

theorem aggBlk_at (c : Dev nD) (t : Fin cfg0.N) (r : Fin 4000) (k : Fin 128) :
    aggBlk m c t (ix2 r k) = agg m c (ix2 (node t r) k) := by
  show (V m c main_v13 : S100000x128.Idx → EReal) (((cfg0.win 1).blk t).view.emb (ix2 r k)) = _
  rw [agg_pos, agg_eq]

theorem degBlk_at (c : Dev nD) (t : Fin cfg0.N) (r : Fin 4000) (u : Fin 1) :
    degBlk m c t (ix2 r u) = deg m c (ix1 (node t r)) := by
  show (V m c main_v18 : S100000x1.Idx → EReal) (((cfg0.win 2).blk t).view.emb (ix2 r u)) = _
  rw [deg_pos, degcol_at]

theorem wownBlk_at (c : Dev nD) (t : Fin cfg0.N) (k o : Fin 128) :
    wownBlk m c t (ix2 k o) = weights m c (ix2 o (own k)) := by
  show (V m c main_v21 : S128x128.Idx → EReal) (((cfg0.win 3).blk t).view.emb (ix2 k o)) = _
  rw [wown_pos, wown_at]

theorem wnbrBlk_at (c : Dev nD) (t : Fin cfg0.N) (k o : Fin 128) :
    wnbrBlk m c t (ix2 k o) = weights m c (ix2 o (nbr k)) := by
  show (V m c main_v24 : S128x128.Idx → EReal) (((cfg0.win 4).blk t).view.emb (ix2 k o)) = _
  rw [wnbr_pos, wnbr_at]

theorem biasBlk_at (c : Dev nD) (t : Fin cfg0.N) (u : Fin 1) (o : Fin 128) :
    biasBlk m c t (ix2 u o) = bias m c (ix1 o) := by
  show (V m c main_v25 : S1x128.Idx → EReal) (((cfg0.win 5).blk t).view.emb (ix2 u o)) = _
  rw [bias_pos, biasrow_at]

end Cert.KernelBlocks

end
-- ==== Proof.LibBroadcastColumn.lean ====
/-
  One column broadcast over many: a `[a, 1]` array broadcast to `[a, b]` reads, at `(p, c)`, the operand's one
  column at row `p`.  (The companion of the library's row form `broadcastTo_1b_ab_apply`: a per-row bias added to
  every column of a matrix.)
-/
import Idealize.ShloMosaic.Lib.Pipeline.Value
import Idealize.ShloMosaic.Lib.ValueIdx

namespace Idealize.ShloMosaic.ValueIdx

variable {α : Type}

/-- A `[a, 1]` array broadcast to `[a, b]` reads, at `(p, c)`, the operand's one column at `p`: the row axis is kept
    (or has extent one, and then `p = 0`), the unit column axis reads its only index. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KernelBody.lean ====
/-
  What the kernel body stores, element by element.

  The body works on a block of 4000 nodes.  From the block's own features `xs`, aggregated features `as` and degree
  column `ds`, the two weight halves `wx`, `wn` (each 128 × 128, input feature by output feature) and the bias row
  `bs`, it stores, at row `r` and output feature `o`,

      max ( ( Σ_k xb[r,k] · wx[k,o]  +  Σ_k (ab[r,k] / max(db[r,0], 1)) · wn[k,o] )  +  bb[0,o] , 0 ).

  Each block product runs into a zero accumulator, so it is the bare sum over the contracted axis; the narrowing of
  its operands to bf16 changes nothing on the extended reals; the degree column is spread over the 128 features and
  the bias row over the 4000 rows.
-/
import proofs.«411921_j47339129536946_3_alg».proof.Proof.Gen.KernelIdeal.Skeleton
import proofs.«411921_j47339129536946_3_alg».proof.Proof.LibBroadcastColumn
import Idealize.ShloMosaic.Lib.Pipeline.Value
import Idealize.ShloMosaic.Lib.ValueIdx
import Idealize.ShloMosaic.Lib.ValueLayout
import Idealize.ShloMosaic.PureOps.Ideal.Laws

noncomputable section

namespace Cert.KernelBody

open Cert.KernelIdeal Cert.KernelIdeal.Gen Idealize.ShloMosaic Idealize.ShloMosaic.ValueIdx

/-! ## The block product as a sum -/

theorem lhs_axis0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs_axis1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem rhs_axis0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem rhs_axis1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- A 4000 × 128 block times a 128 × 128 matrix, into a zero accumulator, at `(r, o)`: the sum over the 128 shared
    features of the block's row `r` against the matrix's column `o`. -/
theorem block_product (L : FVec Ideal S4000x128 .bf16) (R : FVec Ideal S128x128 .bf16) (r : Fin 4000) (o : Fin 128) :
    matmul dot_S4000x128_S128x128_S4000x128_1_0_0_1_n_n none L R (constant S4000x128 .f32 0x00000000#32) (ix2 r o)
      = ∑ k : Fin 128, L (ix2 r k) * R (ix2 k o) := by
  show FloatOps.matmul dot_S4000x128_S128x128_S4000x128_1_0_0_1_n_n none L R (constant S4000x128 .f32 0x00000000#32) (ix2 r o) = _
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 r o) ((ValueIdx.contrEquiv1 dot_S4000x128_S128x128_S4000x128_1_0_0_1_n_n 128 rfl rfl).symm k) = ix2 r k := funext fun a => Fin.ext (by
    match a with
    | ⟨0, _⟩ => exact lhs_axis0 _ _
    | ⟨1, _⟩ => exact (lhs_axis1 _ _).trans hk)
  have er : dot_S4000x128_S128x128_S4000x128_1_0_0_1_n_n.rhsIdx (ix2 r o) ((ValueIdx.contrEquiv1 dot_S4000x128_S128x128_S4000x128_1_0_0_1_n_n 128 rfl rfl).symm k) = ix2 k o := funext fun a => Fin.ext (by
    match a with
    | ⟨0, _⟩ => exact (rhs_axis0 _ _).trans hk
    | ⟨1, _⟩ => exact rhs_axis1 _ _)
  rw [el, er]

/-! ## The stored value at `(r, o)` -/

/-- The body's one store, read at row `r` and output feature `o` of the block. -/
theorem stored_at (xb ab : Vec Ideal S4000x128 .f32) (db : Vec Ideal S4000x1 .f32) (wx wn : Vec Ideal S128x128 .bf16)
    (bb : Vec Ideal S1x128 .f32) (r : Fin 4000) (o : Fin 128) :
    k0_pay1 (F := Ideal) xb ab db wx wn bb (ix2 r o)
      = max ((∑ k : Fin 128, xb (ix2 r k) * wx (ix2 k o)
              + ∑ k : Fin 128, Ideal.div (ab (ix2 r k)) (max (db (ix2 r (0 : Fin 1))) (Ideal.ofBits .f32 0x3F800000#32)) * wn (ix2 k o))
             + bb (ix2 (0 : Fin 1) o)) (Ideal.ofBits .f32 0x00000000#32) := by
  unfold k0_pay1
  simp only [shapeCast_self]
  show max ((matmul dot_S4000x128_S128x128_S4000x128_1_0_0_1_n_n none (truncf .bf16 xb bitsLt_bf16_f32) wx (constant S4000x128 .f32 0x00000000#32) (ix2 r o)
      + matmul dot_S4000x128_S128x128_S4000x128_1_0_0_1_n_n none
          (truncf .bf16 (divf ab (broadcastTo S4000x128 (maximumf db (broadcast S4000x1 (Scalar.ofBits (F := Ideal) .f32 0x3F800000#32))) broadcasts_S4000x1_S4000x128)) bitsLt_bf16_f32)
          wn (constant S4000x128 .f32 0x00000000#32) (ix2 r o))
      + broadcastTo S4000x128 bb broadcasts_S1x128_S4000x128 (ix2 r o)) (Ideal.ofBits .f32 0x00000000#32) = _
  rw [block_product, block_product, broadcastTo_1b_ab_apply]
  have hd : ∀ k : Fin 128,
      broadcastTo S4000x128 (maximumf db (broadcast S4000x1 (Scalar.ofBits (F := Ideal) .f32 0x3F800000#32))) broadcasts_S4000x1_S4000x128 (ix2 r k)
        = max (db (ix2 r (0 : Fin 1))) (Ideal.ofBits .f32 0x3F800000#32) := fun k => by
    rw [broadcastTo_a1_ab_apply]; rfl
  refine congrArg (fun z => max (z + bb (ix2 (0 : Fin 1) o)) (Ideal.ofBits .f32 0x00000000#32)) ?_
  refine congrArg₂ (· + ·) rfl (Finset.sum_congr rfl fun k _ => ?_)
  show Ideal.div (ab (ix2 r k)) (broadcastTo S4000x128 (maximumf db (broadcast S4000x1 (Scalar.ofBits (F := Ideal) .f32 0x3F800000#32))) broadcasts_S4000x1_S4000x128 (ix2 r k)) * wn (ix2 k o) = _
  rw [hd k]

end Cert.KernelBody

end
-- ==== Proof.KernelArray.lean ====
/-
  The kernel's result array is the layer.

  What grid point `t` writes back is the body's stored value of the point's blocks.  Read at row `r`, output
  feature `o`, and with each block's element replaced by the array element it is, that value is the layer at node
  `4000 t + r` and feature `o` — that is, block `t` of the layer.  The 25 blocks of 4000 rows tile the 100000 rows
  (node `n` is in block `n / 4000`), so after the run the whole array is the layer.
-/
import proofs.«411921_j47339129536946_3_alg».proof.Proof.KernelBlocks
import proofs.«411921_j47339129536946_3_alg».proof.Proof.KernelBody
import proofs.«411921_j47339129536946_3_alg».proof.Proof.Gen.KernelIdeal.Value

noncomputable section

namespace Cert.KernelArray

open Cert.KernelIdeal Cert.KernelIdeal.Gen Idealize.ShloMosaic Idealize.ShloMosaic.TcCoe Idealize.SL.Sem
open Idealize.ShloMosaic.Pipeline (Dat)
open Idealize.ShloMosaic.ValueIdx Cert.MeanLayer Cert.KernelOperands Cert.KernelBlocks Cert.KernelBody

variable (m : (ℓ : Loc nD τ sig) → Buf (Elt Ideal) ℓ) (ρ : Dev nD → PrngReg)

/-- The layer of this program's inputs. -/
abbrev result (c : Dev nD) : S100000x128.Idx → EReal :=
  MeanLayer.out (feats m c) (agg m c) (deg m c) (weights m c) (bias m c)

theorem origin : (![0, 0] : Fin 2 → Nat) = fun _ => 0 := funext fun a => by fin_cases a <;> rfl

/-- WHAT POINT `t` WRITES BACK is block `t` of the layer. -/
theorem flushed_eq (c : Dev nD) (t : Fin cfg0.N) :
    (dats m 0 c).flushed 6 t = ((cfg0.win 6).blk t).view.read (Elt Ideal) (result m c) := by
  rw [Cert.KernelIdeal.Value.flushed6]
  unfold out0_6
  rw [View.canon_unit_zero origin]
  simp only [View.ld_unit_zero (S := S4000x128) origin, View.ld_unit_zero (S := S4000x1) origin,
    View.ld_unit_zero (S := S128x128) origin, View.ld_unit_zero (S := S1x128) origin]
  funext j
  obtain ⟨r, o, rfl⟩ : ∃ (r : Fin 4000) (o : Fin 128), j = ix2 r o := ⟨j 0, j 1, eq_ix2 (n0 := 4000) (n1 := 128) j⟩
  show k0_pay1 (F := Ideal) (featBlk m c t) (aggBlk m c t) (degBlk m c t) (wownBlk m c t) (wnbrBlk m c t) (biasBlk m c t) (ix2 r o)
      = result m c (((cfg0.win 6).blk t).view.emb (ix2 r o))
  rw [out_pos]
  refine (stored_at (featBlk m c t) (aggBlk m c t) (degBlk m c t) (wownBlk m c t) (wnbrBlk m c t) (biasBlk m c t) r o).trans ?_
  simp only [featBlk_at, aggBlk_at, degBlk_at, wownBlk_at, wnbrBlk_at, biasBlk_at]
  rfl

/-- An index of the array is in point `t`'s block iff each coordinate is in the block's range on its axis. -/
theorem mem_blk (t : Fin cfg0.N) (i : S100000x128.Idx) :
    i ∈ ((cfg0.win 6).blk t).view.set ↔ ∀ a : Fin 2, win0_6.index t a * S4000x128.size a ≤ (i a).val ∧ (i a).val < win0_6.index t a * S4000x128.size a + S4000x128.size a := by
  show i ∈ ((View.whole main_v26).slice (win0_6.rect t)).set ↔ _
  rw [View.set_slice_whole, Rect.mem_set_unit]
  exact Iff.rfl

/-- Every node's row is in some point's block: node `n` in block `n / 4000`. -/
theorem cover (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 25 := N_0
  have ht : (i 0).val / 4000 < cfg0.N := by rw [hN]; omega
  obtain ⟨-, -, -, -, -, -, -, -, -, -, -, -, e0, e1⟩ := index_maps ⟨(i 0).val / 4000, ht⟩
  refine ⟨⟨(i 0).val / 4000, ht⟩, flush0_6 _, ?_⟩
  rw [mem_blk]
  intro a
  match a with
  | ⟨0, _⟩ =>
    show win0_6.index ⟨(i 0).val / 4000, ht⟩ (0 : Fin 2) * 4000 ≤ (i 0).val
      ∧ (i 0).val < win0_6.index ⟨(i 0).val / 4000, ht⟩ (0 : Fin 2) * 4000 + 4000
    rw [e0]
    show (i 0).val / 4000 * 4000 ≤ (i 0).val ∧ (i 0).val < (i 0).val / 4000 * 4000 + 4000
    omega
  | ⟨1, _⟩ =>
    show win0_6.index ⟨(i 0).val / 4000, ht⟩ (1 : Fin 2) * 128 ≤ (i 1).val
      ∧ (i 1).val < win0_6.index ⟨(i 0).val / 4000, ht⟩ (1 : Fin 2) * 128 + 128
    rw [e1]
    omega

/-- THE ARRAY after the run is the layer. -/
theorem final (c : Dev nD) : (dats m 0 c).arrAt 6 cfg0.N = result m c :=
  (dats m 0 c).arrAt_eq_of_cover 6 (result m c) (fun t _ => flushed_eq m c t) cover

/-- The kernel's run: the result array ends at the layer of the inputs, the inputs as launched. -/
theorem run : θ_run defs (onTc (τ := τ) (main (F := Ideal))) ⟨m, fun _ => 0, ρ⟩ fun r => ∀ c : Dev nD,
      r.2.mem ((c : Thread nD τ).loc main_v26) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.KernelArray

end
-- ==== Proof.lean ====
/-
  A mean-aggregation graph layer, tiled over node blocks, against its plain reference.

  Both programs compute, for node `n` and output feature `o`,

      out[n, o] = max ( Σ_{k<128} x[n,k] · W[o,k]  +  Σ_{k<128} (agg[n,k] / max(deg[n], 1)) · W[o,128+k]  +  b[o] , 0 )

  where `agg[n]` is the sum of the feature rows `x[src]` over the edges `(src, n)` and `deg[n]` their number.  Both
  build `agg` and `deg` with the same gather and scatter-add of the same inputs, so those two arrays are carried
  as they are and never opened.

  The reference lays each node's features and mean side by side as one row of 256 and multiplies by the whole
  transposed weight matrix; the kernel works on blocks of 4000 nodes and multiplies the block of features by the
  first half of the weights and the block of means by the second half, then adds.  On the extended reals the two
  agree because a sum over 256 columns is the sum over its two halves (`MeanLayer.sum_halves`: addition is
  commutative and associative; nothing needs the inputs to be finite).  The kernel narrows its matrix operands to
  bf16, which is the identity on the extended reals, and each block product runs into a zero accumulator.

  The modules: `Layer` (the layer as one function of five arrays, and the law), `RefLayer` (the reference's last
  stage is that function), `KernelBody` (the value the body stores, at an index), `KernelOperands` (the arrays the
  region finds, as terms of the inputs), `KernelBlocks` (each block's element as an array element),
  `KernelArray` (point `t` writes block `t` of the layer; the blocks tile the array; the run).

  The three frames are the generated ones (the reference's is its generated run with the result dropped); the
  idealization rewrote nothing, so `preserves` is `True`.
-/
import proofs.«411921_j47339129536946_3_alg».proof.Defs
import proofs.«411921_j47339129536946_3_alg».proof.Proof.Gen.Kernel
import proofs.«411921_j47339129536946_3_alg».proof.Proof.Gen.Kernel.Skeleton
import proofs.«411921_j47339129536946_3_alg».proof.Proof.Gen.Kernel.Launch
import proofs.«411921_j47339129536946_3_alg».proof.Proof.Gen.Kernel.Points
import proofs.«411921_j47339129536946_3_alg».proof.Proof.Gen.Kernel.Frame
import proofs.«411921_j47339129536946_3_alg».proof.Proof.Gen.KernelIdeal
import proofs.«411921_j47339129536946_3_alg».proof.Proof.Gen.KernelIdeal.Skeleton
import proofs.«411921_j47339129536946_3_alg».proof.Proof.Gen.KernelIdeal.Launch
import proofs.«411921_j47339129536946_3_alg».proof.Proof.Gen.KernelIdeal.Points
import proofs.«411921_j47339129536946_3_alg».proof.Proof.Gen.KernelIdeal.Frame
import proofs.«411921_j47339129536946_3_alg».proof.Proof.Gen.ReferenceIdeal
import proofs.«411921_j47339129536946_3_alg».proof.Proof.Gen.Pre_finite_inputs
import proofs.«411921_j47339129536946_3_alg».proof.Proof.Gen.KernelIdeal.Value
import proofs.«411921_j47339129536946_3_alg».proof.Proof.Gen.ReferenceIdeal.Run
import proofs.«411921_j47339129536946_3_alg».proof.Proof.Gen.ReferenceIdeal.Read
import proofs.«411921_j47339129536946_3_alg».proof.Proof.RefLayer
import proofs.«411921_j47339129536946_3_alg».proof.Proof.KernelArray
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From inputs that agree, the kernel's result array ends at the layer of its inputs (`KernelArray.run`) and the
    reference's at the layer of its own (`RefLayer.result_eq`): the same array. -/
theorem algebraic : Cert.algebraic_KernelIdeal_ReferenceIdeal := by
  intro m ρ m' ρ' _ hagree
  refine ⟨fun c => Cert.KernelArray.result m c, Cert.KernelArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, Cert.RefLayer.result_eq, (hagree c).1, (hagree c).2.1,
    (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
